-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x256 .f32) (main_arg1 : IVec S2x3200000 32) (main_arg2 : FVec F S256x64 .f32) (main_arg3 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S100000x64 : Shape := ⟨2, ![100000, 64]⟩
abbrev S5000x256 : Shape := ⟨2, ![5000, 256]⟩
abbrev S5000x64 : Shape := ⟨2, ![5000, 64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S3301376x64 : Shape := ⟨2, ![3301376, 64]⟩
abbrev S3301376 : Shape := ⟨1, ![3301376]⟩
abbrev S3301376x1 : Shape := ⟨2, ![3301376, 1]⟩
abbrev S8192x64 : Shape := ⟨2, ![8192, 64]⟩
abbrev S8192x1 : Shape := ⟨2, ![8192, 1]⟩
abbrev S1x64 : Shape := ⟨2, ![1, 64]⟩

abbrev nBuf : Space → Nat
  | .hbm => 70
  | .vmem => 11
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x64, .f32⟩
  | .hbm, ⟨3, _⟩ => ⟨S64, .f32⟩
  | .hbm, ⟨4, _⟩ => ⟨S100000x64, .f32⟩
  | .hbm, ⟨5, _⟩ => ⟨S100000, .i32⟩
  | .hbm, ⟨6, _⟩ => ⟨S1x3200000, .i32⟩
  | .hbm, ⟨7, _⟩ => ⟨S3200000, .i32⟩
  | .hbm, ⟨8, _⟩ => ⟨S3300000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S_, .f32⟩
  | .hbm, ⟨13, _⟩ => ⟨S3300000, .f32⟩
  | .hbm, ⟨14, _⟩ => ⟨S_, .f32⟩
  | .hbm, ⟨15, _⟩ => ⟨S100000, .f32⟩
  | .hbm, ⟨16, _⟩ => ⟨S3300000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3300000, .i32⟩
  | .hbm, ⟨28, _⟩ => ⟨S3300000, .i1⟩
  | .hbm, ⟨29, _⟩ => ⟨S_, .i32⟩
  | .hbm, ⟨30, _⟩ => ⟨S3300000, .i32⟩
  | .hbm, ⟨31, _⟩ => ⟨S3300000, .i32⟩
  | .hbm, ⟨32, _⟩ => ⟨S3300000, .i32⟩
  | .hbm, ⟨33, _⟩ => ⟨S3300000x1, .i32⟩
  | .hbm, ⟨34, _⟩ => ⟨S3300000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S3300000, .f32⟩
  | .hbm, ⟨45, _⟩ => ⟨S_, .i32⟩
  | .hbm, ⟨46, _⟩ => ⟨S3300000, .i32⟩
  | .hbm, ⟨47, _⟩ => ⟨S3300000, .i1⟩
  | .hbm, ⟨48, _⟩ => ⟨S_, .i32⟩
  | .hbm, ⟨49, _⟩ => ⟨S3300000, .i32⟩
  | .hbm, ⟨50, _⟩ => ⟨S3300000, .i32⟩
  | .hbm, ⟨51, _⟩ => ⟨S3300000, .i32⟩
  | .hbm, ⟨52, _⟩ => ⟨S3300000x1, .i32⟩
  | .hbm, ⟨53, _⟩ => ⟨S3300000x64, .f32⟩
  | .hbm, ⟨54, _⟩ => ⟨S_, .i32⟩
  | .hbm, ⟨55, _⟩ => ⟨S_, .f32⟩
  | .hbm, ⟨56, _⟩ => ⟨S3301376x64, .f32⟩
  | .hbm, ⟨57, _⟩ => ⟨S_, .i32⟩
  | .hbm, ⟨58, _⟩ => ⟨S_, .f32⟩
  | .hbm, ⟨59, _⟩ => ⟨S3301376, .f32⟩
  | .hbm, ⟨60, _⟩ => ⟨S3301376x1, .f32⟩
  | .hbm, ⟨61, _⟩ => ⟨S3301376x64, .f32⟩
  | .hbm, ⟨62, _⟩ => ⟨S3300000x64, .f32⟩
  | .hbm, ⟨63, _⟩ => ⟨S_, .f32⟩
  | .hbm, ⟨64, _⟩ => ⟨S100000x64, .f32⟩
  | .hbm, ⟨65, _⟩ => ⟨S3300000x1, .i32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S8192x64, .f32⟩
  | .local _ .vmem, ⟨6, _⟩ => ⟨S8192x64, .f32⟩
  | .local _ .vmem, ⟨7, _⟩ => ⟨S8192x1, .f32⟩
  | .local _ .vmem, ⟨8, _⟩ => ⟨S8192x1, .f32⟩
  | .local _ .vmem, ⟨9, _⟩ => ⟨S8192x64, .f32⟩
  | .local _ .vmem, ⟨10, _⟩ => ⟨S8192x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_8 : Ref sig .tc := ⟨.hbm, 54, rfl⟩
abbrev main_call1_v0 : Ref sig .tc := ⟨.hbm, 55, rfl⟩
abbrev main_v38 : Ref sig .tc := ⟨.hbm, 56, rfl⟩
abbrev main_c_9 : Ref sig .tc := ⟨.hbm, 57, rfl⟩
abbrev main_call2_v0 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![403], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  pads_S3300000x64_S3301376x64_013760_000 : S3300000x64.Pads (![0, 0] : Fin 2 → Nat) ![1376, 0] ![0, 0] S3301376x64
  h_S_ : 0 < S_.numel
  pads_S3300000_S3301376_013760 : S3300000.Pads (![0] : Fin 1 → Nat) ![1376] ![0] S3301376
  shapeCasts_S3301376_S3301376x1 : S3301376.ShapeCasts S3301376x1
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x64 : S8192x1.Broadcasts S8192x64
  slices_S3301376x64_S3300000x64_0_0 : S3301376x64.Slices ![0, 0] S3300000x64
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S5000x256_S256x64_S5000x64_1_0_0_1_n_n_wf : DotDims.WF S5000x256 S256x64 S5000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S3301376x64.size a
  hwx1_0 : ∀ i : grid1.Coords, EltTy.bits .f32 = 32 ∨ (Rect.block (s := S3301376x64) S8192x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x1.size a ≤ S3301376x1.size a
  hwx1_1 : ∀ i : grid1.Coords, EltTy.bits .f32 = 32 ∨ (Rect.block (s := S3301376x1) S8192x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S3301376x64.size a
  hwx1_2 : ∀ i : grid1.Coords, EltTy.bits .f32 = 32 ∨ (Rect.block (s := S3301376x64) S8192x64.size (cc1_transform_2 i) (hinb1_2 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S8192x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S8192x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S100000x64 : Shape := ⟨2, ![100000, 64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩

abbrev nBuf : Space → Nat
  | .hbm => 64
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x64, .f32⟩
  | .hbm, ⟨3, _⟩ => ⟨S64, .f32⟩
  | .hbm, ⟨4, _⟩ => ⟨S100000x64, .f32⟩
  | .hbm, ⟨5, _⟩ => ⟨S100000, .i32⟩
  | .hbm, ⟨6, _⟩ => ⟨S1x3200000, .i32⟩
  | .hbm, ⟨7, _⟩ => ⟨S3200000, .i32⟩
  | .hbm, ⟨8, _⟩ => ⟨S3300000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S_, .f32⟩
  | .hbm, ⟨13, _⟩ => ⟨S3300000, .f32⟩
  | .hbm, ⟨14, _⟩ => ⟨S_, .f32⟩
  | .hbm, ⟨15, _⟩ => ⟨S100000, .f32⟩
  | .hbm, ⟨16, _⟩ => ⟨S3300000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3300000, .i32⟩
  | .hbm, ⟨28, _⟩ => ⟨S3300000, .i1⟩
  | .hbm, ⟨29, _⟩ => ⟨S_, .i32⟩
  | .hbm, ⟨30, _⟩ => ⟨S3300000, .i32⟩
  | .hbm, ⟨31, _⟩ => ⟨S3300000, .i32⟩
  | .hbm, ⟨32, _⟩ => ⟨S3300000, .i32⟩
  | .hbm, ⟨33, _⟩ => ⟨S3300000x1, .i32⟩
  | .hbm, ⟨34, _⟩ => ⟨S3300000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S3300000, .f32⟩
  | .hbm, ⟨45, _⟩ => ⟨S_, .i32⟩
  | .hbm, ⟨46, _⟩ => ⟨S3300000, .i32⟩
  | .hbm, ⟨47, _⟩ => ⟨S3300000, .i1⟩
  | .hbm, ⟨48, _⟩ => ⟨S_, .i32⟩
  | .hbm, ⟨49, _⟩ => ⟨S3300000, .i32⟩
  | .hbm, ⟨50, _⟩ => ⟨S3300000, .i32⟩
  | .hbm, ⟨51, _⟩ => ⟨S3300000, .i32⟩
  | .hbm, ⟨52, _⟩ => ⟨S3300000x1, .i32⟩
  | .hbm, ⟨53, _⟩ => ⟨S3300000x64, .f32⟩
  | .hbm, ⟨54, _⟩ => ⟨S3300000x1, .f32⟩
  | .hbm, ⟨55, _⟩ => ⟨S3300000x64, .f32⟩
  | .hbm, ⟨56, _⟩ => ⟨S3300000x64, .f32⟩
  | .hbm, ⟨57, _⟩ => ⟨S_, .f32⟩
  | .hbm, ⟨58, _⟩ => ⟨S100000x64, .f32⟩
  | .hbm, ⟨59, _⟩ => ⟨S3300000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x256_S256x64_S100000x64_1_0_0_1_n_n_wf : DotDims.WF S100000x256 S256x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

class Facts : Prop extends Facts₀ where

variable [Facts]
-- ==== Proof.RowScale.lean ====
/-
  Scaling the rows of a matrix by a column, padded and cut back.

  `rowScale X Y` multiplies entry (r, j) of an [R', 64] matrix `X` by entry (r, 0) of an [R', 1] column `Y`.
  Here R' = 3301376 is R = 3300000 rounded up to whole blocks of 8192 rows. Padding an [R, 64] matrix `g` and an [R]
  vector `n` with 1376 further rows each (of any value), recasting the padded vector as a column, scaling rows, and
  keeping the first R rows again is the entrywise product of `g` with `n` broadcast along the rows: at (r, j) with
  r < R both read g (r, j) · n r, the padding rows being cut away before anything reads them.
-/
import Idealize.ShloMosaic.Lib.ValueIdx
import Idealize.ShloMosaic.Lib.ValueLayout
import Idealize.ShloMosaic.Lib.Pipeline.Value
import Idealize.ShloMosaic.Lib.KernelVsHost

noncomputable section

namespace Cert.RowScale

open Idealize.ShloMosaic Idealize.ShloMosaic.ValueIdx

variable {F : FTy → Type} [FloatOps F]

abbrev Rows : Shape := ⟨1, ![3300000]⟩
abbrev RowsP : Shape := ⟨1, ![3301376]⟩
abbrev Col : Shape := ⟨2, ![3300000, 1]⟩
abbrev ColP : Shape := ⟨2, ![3301376, 1]⟩
abbrev Mat : Shape := ⟨2, ![3300000, 64]⟩
abbrev MatP : Shape := ⟨2, ![3301376, 64]⟩

/-- Entry (r, j) of `X` times entry (r, 0) of the column `Y`. -/
def rowScale (X : FVec F MatP .f32) (Y : FVec F ColP .f32) : FVec F MatP .f32 :=
  fun i => FloatOps.mulf (X i) (Y (ix2 (i 0) (0 : Fin 1)))

theorem rowScale_apply (X : FVec F MatP .f32) (Y : FVec F ColP .f32) (p : Fin 3301376) (q : Fin 64) :
    rowScale X Y (ix2 p q) = FloatOps.mulf (X (ix2 p q)) (Y (ix2 p (0 : Fin 1))) := rfl

/-- The padded matrix at a row below R is the matrix there. -/
theorem pad_mat_apply {u : Shape} (g : FVec F Mat .f32) (z : u.Idx → F .f32)
    (hp : Mat.Pads ![0, 0] ![1376, 0] ![0, 0] MatP) (hu : 0 < u.numel) (p : Fin 3300000) (q : Fin 64) (p' : Fin 3301376)
    (hp' : p'.val = p.val) :
    pad MatP ![0, 0] ![1376, 0] ![0, 0] g z hp hu (ix2 p' q) = g (ix2 p q) :=
  pad_apply_of_inside ![0, 0] ![1376, 0] ![0, 0] g z hp hu (ix2 p' q) (ix2 p q) fun a => by
    match a with
    | ⟨0, _⟩ => show p'.val = 0 + p.val * (0 + 1); omega
    | ⟨1, _⟩ => show q.val = 0 + q.val * (0 + 1); omega

/-- The padded vector at an entry below R is the vector there. -/
theorem pad_vec_apply {u : Shape} (n : FVec F Rows .f32) (z : u.Idx → F .f32)
    (hp : Rows.Pads ![0] ![1376] ![0] RowsP) (hu : 0 < u.numel) (p : Fin 3300000) (p' : Fin 3301376)
    (hp' : p'.val = p.val) :
    pad RowsP ![0] ![1376] ![0] n z hp hu (ix1 p') = n (ix1 p) :=
  pad_apply_of_inside ![0] ![1376] ![0] n z hp hu (ix1 p') (ix1 p) fun a => by
    match a with
    | ⟨0, _⟩ => show p'.val = 0 + p.val * (0 + 1); omega

/-- A vector recast as a column reads, at (p, 0), the vector at p. -/
theorem col_apply (x : FVec F RowsP .f32) (h : RowsP.ShapeCasts ColP) (p : Fin 3301376) :
    shapeCast ColP x h (ix2 p (0 : Fin 1)) = x (ix1 p) :=
  shapeCast_apply x h _ _ (by
    rw [Shape.rowMajor_val_two, Shape.rowMajor_val_one]
    show p.val = p.val * 1 + 0
    omega)

/-- A vector broadcast to a column and then along the rows reads, at (p, q), the vector at p. -/
theorem bcast_rows_apply (n : FVec F Rows .f32) (hb1 : Rows.BroadcastsInDim Col ![0]) (hb2 : Col.BroadcastsInDim Mat ![0, 1])
    (p : Fin 3300000) (q : Fin 64) :
    broadcastInDim Mat ![0, 1] hb2 (broadcastInDim Col ![0] hb1 n) (ix2 p q) = n (ix1 p) := by
  rw [broadcastInDim_apply ![0, 1] hb2 _ (ix2 p q) (ix2 p (0 : Fin 1)) (fun a => by
    match a with
    | ⟨0, _⟩ => show p.val = if (3300000 : Nat) = 1 then 0 else p.val; rw [if_neg (by decide)]
    | ⟨1, _⟩ => show 0 = if (1 : Nat) = 1 then 0 else q.val; rw [if_pos rfl])]
  exact broadcastInDim_apply ![0] hb1 n (ix2 p (0 : Fin 1)) (ix1 p) (fun a => by
    match a with
    | ⟨0, _⟩ => show p.val = if (3300000 : Nat) = 1 then 0 else p.val; rw [if_neg (by decide)])

/-- Pad, recast, scale the rows, cut back: the entrywise product with the vector broadcast along the rows. -/
theorem slice_rowScale_pad {u u' : Shape} (g : FVec F Mat .f32) (n : FVec F Rows .f32)
    (z : u.Idx → F .f32) (z' : u'.Idx → F .f32)
    (hp2 : Mat.Pads ![0, 0] ![1376, 0] ![0, 0] MatP) (hu : 0 < u.numel)
    (hp1 : Rows.Pads ![0] ![1376] ![0] RowsP) (hu' : 0 < u'.numel)
    (hsc : RowsP.ShapeCasts ColP) (hsl : MatP.Slices ![0, 0] Mat)
    (hb1 : Rows.BroadcastsInDim Col ![0]) (hb2 : Col.BroadcastsInDim Mat ![0, 1]) :
    extractStridedSlice Mat ![0, 0]
        (rowScale (pad MatP ![0, 0] ![1376, 0] ![0, 0] g z hp2 hu)
          (shapeCast ColP (pad RowsP ![0] ![1376] ![0] n z' hp1 hu') hsc)) hsl
      = mulf g (broadcastInDim Mat ![0, 1] hb2 (broadcastInDim Col ![0] hb1 n)) := by
  funext j
  obtain ⟨p, q, rfl⟩ : ∃ (p : Fin 3300000) (q : Fin 64), j = ix2 p q := ⟨j 0, j 1, eq_ix2 j⟩
  have hlt : p.val < 3301376 := by have := p.isLt; omega
  rw [extractStridedSlice_apply ![0, 0] _ hsl (ix2 p q) (ix2 (⟨p.val, hlt⟩ : Fin 3301376) q) (fun a => by
    match a with
    | ⟨0, _⟩ => show p.val = 0 + p.val; omega
    | ⟨1, _⟩ => show q.val = 0 + q.val; omega)]
  rw [rowScale_apply, pad_mat_apply g z hp2 hu p q ⟨p.val, hlt⟩ rfl, col_apply,
    pad_vec_apply n z' hp1 hu' p ⟨p.val, hlt⟩ rfl]
  show _ = FloatOps.mulf (g (ix2 p q)) _
  rw [bcast_rows_apply n hb1 hb2 p q]

end Cert.RowScale

end
-- ==== Proof.LibPlainDot.lean ====
/-
  General lemmas for reading a kernel's vector operations at an index, at the ideal instance.

  * `matmul_plain_apply`: a matrix product of an [M, K] operand with a [K, N] operand into a zero accumulator, read at
    (p, j), is the sum over k of lhs (p, k) · rhs (k, j), for any record of dimension numbers whose four axis facts are
    given (row of the output from the left operand's axis 0, column from the right operand's axis 1, the one contracted
    index on the left's axis 1 and the right's axis 0).
  * `shapeCast_a_a1_apply`: an [a] vector recast as an [a, 1] column reads, at (p, u), the vector at p.
  * `broadcastTo_a1_ab_apply`: an [a, 1] column broadcast to [a, b] reads, at (p, c), the column at (p, 0).
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib

open Idealize.ShloMosaic Idealize.ShloMosaic.ValueIdx

/-- A plain two-operand matrix product into the zero accumulator, read at (p, j): ∑ₖ lhs (p, k) · rhs (k, j). -/
theorem matmul_plain_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂)
    (p : Fin M) (j : Fin N) :
    FloatOps.matmul d prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

variable {α : Type}

/-- An `[a]` vector recast as an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.ScaleRegion.lean ====
/-
  The second kernel region, read as a value: rows scaled by a column.

  The region walks the [3301376, 64] matrix in 403 blocks of 8192 rows. At block t its body multiplies the block of the
  matrix by the matching block of the [3301376, 1] column broadcast along the rows, and writes the product to block t
  of the output. A block's row r is row 8192 t + r of the whole array, for all three windows alike, so what block t
  writes back is block t of `rowScale` of the two whole arrays; the 403 blocks tile the output (403 · 8192 = 3301376),
  so the output array ends holding `rowScale` of the arrays the region found.
-/
import proofs.«143557_j25056839205779_1_alg».proof.Proof.Gen.KernelIdeal.Frame
import proofs.«143557_j25056839205779_1_alg».proof.Proof.RowScale
import proofs.«143557_j25056839205779_1_alg».proof.Proof.LibPlainDot
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.ScaleRegion

open Cert.KernelIdeal Cert.KernelIdeal.Gen Cert.RowScale

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The body's product at (p, q): the matrix block there times the column block at (p, 0). -/
theorem pay_apply (x0 : Vec F S8192x64 .f32) (x1 : Vec F S8192x1 .f32) (p : Fin 8192) (q : Fin 64) :
    k1_pay1 x0 x1 (ix2 p q) = FloatOps.mulf (x0 (ix2 p q)) (x1 (ix2 p (0 : Fin 1))) := by
  unfold k1_pay1
  show FloatOps.mulf (shapeCast S8192x64 x0 _ (ix2 p q)) (broadcastTo S8192x64 (shapeCast S8192x1 x1 _) _ (ix2 p q)) = _
  rw [shapeCast_self, Cert.Lib.broadcastTo_a1_ab_apply, shapeCast_self]

/-- The same at any index of the block. -/
theorem pay_at (x0 : Vec F S8192x64 .f32) (x1 : Vec F S8192x1 .f32) (y : S8192x64.Idx) :
    k1_pay1 x0 x1 y = FloatOps.mulf (x0 y) (x1 (ix2 (y 0) (0 : Fin 1))) := by
  obtain ⟨p, q, rfl⟩ : ∃ (p : Fin 8192) (q : Fin 64), y = ix2 p q := ⟨y 0, y 1, eq_ix2 y⟩
  exact pay_apply x0 x1 p q

/-- All three windows sit at block row t and block column 0 at grid point t. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The matrix and the column as the region finds them, and their blocks at a point, at their literal types. -/
abbrev hsrc (c : Dev nD) : FVec F MatP .f32 := V c main_v38
abbrev ncol (c : Dev nD) : FVec F ColP .f32 := V c main_v40
abbrev hblk (c : Dev nD) (t : Fin cfg1.N) : Vec F S8192x64 .f32 := iblk1 V c 0 t
abbrev nblk (c : Dev nD) (t : Fin cfg1.N) : Vec F S8192x1 .f32 := iblk1 V c 1 t

/-- What point t writes back is block t of the row-scaled whole matrix. -/
theorem flushed_eq (c : Dev nD) (t : Fin cfg1.N) :
    (dat1 V c).flushed 2 t = ((cfg1.win 2).blk t).view.read (Elt F) (rowScale (hsrc V c) (ncol V c)) := by
  show (cfg1.win 2).cut (grid1.coords t) ((dat1 V c).after 2 t) = _
  rw [after1_2]
  unfold out1_2
  rw [View.canon_unit_zero hz]
  simp only [View.ld_unit_zero (S := S8192x64) hz, View.ld_unit_zero (S := S8192x1) hz]
  obtain ⟨e00, e01, e10, e11, e20, e21⟩ := idx_facts t
  funext j
  rw [View.read_apply]
  show k1_pay1 (hblk V c t) (nblk V c t) ((win1 2).xinj (grid1.coords t) j) = rowScale (hsrc V c) (ncol V c) (((cfg1.win 2).blk t).view.emb j)
  refine (pay_at (hblk V c t) (nblk V c t) _).trans ?_
  show FloatOps.mulf (hsrc V c (((cfg1.win 0).blk t).view.emb ((win1 2).xinj (grid1.coords t) j)))
      (ncol V c (((cfg1.win 1).blk t).view.emb (ix2 (((win1 2).xinj (grid1.coords t) j) 0) (0 : Fin 1))))
    = FloatOps.mulf (hsrc V c (((cfg1.win 2).blk t).view.emb j)) (ncol V c (ix2 ((((cfg1.win 2).blk t).view.emb j) 0) (0 : Fin 1)))
  have h0 : ((cfg1.win 0).blk t).view.emb ((win1 2).xinj (grid1.coords t) j) = ((cfg1.win 2).blk t).view.emb j := by
    funext a; apply Fin.ext
    match a with
    | ⟨0, _⟩ => show win1_0.index t (0 : Fin 2) * 8192 + 1 * (j 0).val = win1_2.index t (0 : Fin 2) * 8192 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (ix2 (((win1 2).xinj (grid1.coords t) j) 0) (0 : Fin 1))
      = ix2 ((((cfg1.win 2).blk t).view.emb j) 0) (0 : Fin 1) := by
    funext a; apply Fin.ext
    match a with
    | ⟨0, _⟩ => show win1_1.index t (0 : Fin 2) * 8192 + 1 * (j 0).val = win1_2.index t (0 : Fin 2) * 8192 + 1 * (j 0).val; omega
    | ⟨1, _⟩ => show win1_1.index t (1 : Fin 2) * 1 + 1 * 0 = 0; omega
  exact congrArg₂ FloatOps.mulf (congrArg (hsrc V c) h0) (congrArg (ncol V c) h1)

/-- An index of the output array is in point t's block iff each coordinate is in the block's range on its axis. -/
theorem mem_blk (t : Fin cfg1.N) (i : S3301376x64.Idx) :
    i ∈ ((cfg1.win 2).blk t).view.set ↔ ∀ a : Fin 2, win1_2.index t a * S8192x64.size a ≤ (i a).val ∧ (i a).val < win1_2.index t a * S8192x64.size a + S8192x64.size a := by
  show i ∈ ((View.whole main_v41).slice (win1_2.rect t)).set ↔ _
  rw [View.set_slice_whole, Rect.mem_set_unit]
  exact Iff.rfl

/-- The output array after the region: the matrix it found, each row scaled by the column's entry of that row. -/
theorem final (c : Dev nD) : (dat1 V c).arrAt 2 cfg1.N = rowScale (hsrc V c) (ncol V c) :=
  (dat1 V c).arrAt_eq_of_cover 2 (rowScale (hsrc V c) (ncol V c)) (fun t _ => flushed_eq V c t) fun i => by
    have hi0 : (i 0).val < 3301376 := (i 0).isLt
    have hi1 : (i 1).val < 64 := (i 1).isLt
    have hN : cfg1.N = 403 := N_1
    have hlt : (i 0).val / 8192 < cfg1.N := by rw [hN]; omega
    obtain ⟨-, -, -, -, e20, e21⟩ := idx_facts ⟨(i 0).val / 8192, hlt⟩
    refine ⟨⟨(i 0).val / 8192, hlt⟩, flush1_2 _, ?_⟩
    rw [mem_blk]
    intro a
    match a with
    | ⟨0, _⟩ =>
      show win1_2.index ⟨(i 0).val / 8192, hlt⟩ (0 : Fin 2) * 8192 ≤ (i 0).val ∧ (i 0).val < win1_2.index ⟨(i 0).val / 8192, hlt⟩ (0 : Fin 2) * 8192 + 8192
      rw [e20]; show (i 0).val / 8192 * 8192 ≤ (i 0).val ∧ (i 0).val < (i 0).val / 8192 * 8192 + 8192; omega
    | ⟨1, _⟩ =>
      show win1_2.index ⟨(i 0).val / 8192, hlt⟩ (1 : Fin 2) * 64 ≤ (i 1).val ∧ (i 1).val < win1_2.index ⟨(i 0).val / 8192, hlt⟩ (1 : Fin 2) * 64 + 64
      rw [e21]; omega

end Cert.KernelIdeal.ScaleRegion

end
-- ==== Proof.MatmulRegion.lean ====
/-
  The first kernel region, read as a value at the ideal instance: a matrix product.

  The region walks the [100000, 256] left operand in 20 blocks of 5000 rows, the [256, 64] right operand staying whole.
  At block t its body rounds both blocks to bf16 (the identity on the extended reals) and multiplies them into a zero
  accumulator, so entry (p, q) of what it writes back is the sum over k of left (5000 t + p, k) · right (k, q): entry
  (5000 t + p, q) of the host's dot_general of the two whole arrays, which at the ideal instance is the same sum. The 20
  blocks tile the output (20 · 5000 = 100000), so the output array ends holding that product.
-/
import proofs.«143557_j25056839205779_1_alg».proof.Proof.Gen.KernelIdeal.Frame
import proofs.«143557_j25056839205779_1_alg».proof.Proof.RefRead
import proofs.«143557_j25056839205779_1_alg».proof.Proof.LibPlainDot
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.MatmulRegion

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! The body's product: which entry of each operand the output's entry (i, contracted index q) reads. -/

theorem lhs_0 (i : S5000x64.Idx) (q : dot_S5000x256_S256x64_S5000x64_1_0_0_1_n_n.contr.Idx) : (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
theorem lhs_1 (i : S5000x64.Idx) (q : dot_S5000x256_S256x64_S5000x64_1_0_0_1_n_n.contr.Idx) : (dot_S5000x256_S256x64_S5000x64_1_0_0_1_n_n.lhsIdx i q 1).val = (q ⟨0, by decide⟩).val :=
  dot_S5000x256_S256x64_S5000x64_1_0_0_1_n_n.lhsIdx_val_of_single rfl i q
theorem rhs_0 (i : S5000x64.Idx) (q : dot_S5000x256_S256x64_S5000x64_1_0_0_1_n_n.contr.Idx) : (dot_S5000x256_S256x64_S5000x64_1_0_0_1_n_n.rhsIdx i q 0).val = (q ⟨0, by decide⟩).val :=
  dot_S5000x256_S256x64_S5000x64_1_0_0_1_n_n.rhsIdx_val_of_single rfl i q
theorem rhs_1 (i : S5000x64.Idx) (q : dot_S5000x256_S256x64_S5000x64_1_0_0_1_n_n.contr.Idx) : (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- The body's product at (p, q): the sum over k of left (p, k) · right (k, q). -/
theorem pay_apply (x0 : Vec Ideal S5000x256 .f32) (x1 : Vec Ideal S256x64 .f32) (p : Fin 5000) (q : Fin 64) :
    k0_pay1 (F := Ideal) x0 x1 (ix2 p q) = ∑ k : Fin 256, x0 (ix2 p k) * x1 (ix2 k q) := by
  unfold k0_pay1
  exact Cert.Lib.matmul_plain_apply dot_S5000x256_S256x64_S5000x64_1_0_0_1_n_n rfl rfl lhs_0 lhs_1 rhs_0 rhs_1 none
    (truncf .bf16 x0 bitsLt_bf16_f32) (truncf .bf16 x1 bitsLt_bf16_f32) p q

/-- The same at any index of the block. -/
theorem pay_at (x0 : Vec Ideal S5000x256 .f32) (x1 : Vec Ideal S256x64 .f32) (y : S5000x64.Idx) :
    k0_pay1 (F := Ideal) x0 x1 y = ∑ k : Fin 256, x0 (ix2 (y 0) k) * x1 (ix2 k (y 1)) := by
  obtain ⟨p, q, rfl⟩ : ∃ (p : Fin 5000) (q : Fin 64), y = ix2 p q := ⟨y 0, y 1, eq_ix2 y⟩
  exact pay_apply x0 x1 p q

/-- The left and output windows sit at block row t, the right window stays at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The operands as the region finds them, and their blocks at a point, at their literal types. -/
abbrev xarr (c : Dev nD) : FVec Ideal S100000x256 .f32 := V c main_arg0
abbrev warr (c : Dev nD) : FVec Ideal S256x64 .f32 := V c main_arg2
abbrev xblk (c : Dev nD) (t : Fin cfg0.N) : Vec Ideal S5000x256 .f32 := iblk0 V c 0 t
abbrev wblk (c : Dev nD) (t : Fin cfg0.N) : Vec Ideal S256x64 .f32 := iblk0 V c 1 t

/-- The host's product of the two whole operands. -/
abbrev prod (c : Dev nD) : FVec Ideal S100000x64 .f32 :=
  Cert.ReferenceIdeal.ReadP.val_main_v0 (F := Ideal) (xarr V c) (warr V c)

/-- What point t writes back is block t of the whole product. -/
theorem flushed_eq (c : Dev nD) (t : Fin cfg0.N) :
    (dat0 (F := Ideal) V c).flushed 2 t = ((cfg0.win 2).blk t).view.read (Elt Ideal) (prod V c) := by
  show (cfg0.win 2).cut (grid0.coords t) ((dat0 (F := Ideal) V c).after 2 t) = _
  rw [after0_2]
  unfold out0_2
  rw [View.canon_unit_zero hz]
  simp only [View.ld_unit_zero (S := S5000x256) hz, View.ld_unit_zero (S := S256x64) hz]
  obtain ⟨e00, e01, e10, e11, e20, e21⟩ := idx_facts t
  funext j
  rw [View.read_apply]
  show k0_pay1 (F := Ideal) (xblk V c t) (wblk V c t) ((win0 2).xinj (grid0.coords t) j) = prod V c (((cfg0.win 2).blk t).view.emb j)
  refine (pay_at (xblk V c t) (wblk V c t) _).trans ?_
  refine Eq.trans ?_ (Cert.ReferenceIdeal.ReadP.val_main_v0_apply (xarr V c) (warr V c) (((cfg0.win 2).blk t).view.emb j)).symm
  refine Finset.sum_congr rfl fun k _ => ?_
  show xarr V c (((cfg0.win 0).blk t).view.emb (ix2 (((win0 2).xinj (grid0.coords t) j) 0) k))
      * warr V c (((cfg0.win 1).blk t).view.emb (ix2 k (((win0 2).xinj (grid0.coords t) j) 1)))
    = xarr V c (Cert.ReferenceIdeal.ReadP.lidx_main_v0 (((cfg0.win 2).blk t).view.emb j) k)
      * warr V c (Cert.ReferenceIdeal.ReadP.ridx_main_v0 (((cfg0.win 2).blk t).view.emb j) k)
  have h0 : ((cfg0.win 0).blk t).view.emb (ix2 (((win0 2).xinj (grid0.coords t) j) 0) k)
      = Cert.ReferenceIdeal.ReadP.lidx_main_v0 (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have h1 : ((cfg0.win 1).blk t).view.emb (ix2 k (((win0 2).xinj (grid0.coords t) j) 1))
      = Cert.ReferenceIdeal.ReadP.ridx_main_v0 (((cfg0.win 2).blk t).view.emb j) k := by
    funext a; apply Fin.ext
    match a with
    | ⟨0, _⟩ => show win0_1.index t (0 : Fin 2) * 256 + 1 * k.val = k.val; omega
    | ⟨1, _⟩ => show win0_1.index t (1 : Fin 2) * 64 + 1 * (j 1).val = win0_2.index t (1 : Fin 2) * 64 + 1 * (j 1).val; omega
  rw [h0, h1]

/-- An index of the output array is in point t's block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- The output array after the region: the host's product of the two operands the region found. -/
theorem final (c : Dev nD) : (dat0 (F := Ideal) V c).arrAt 2 cfg0.N = prod V c :=
  (dat0 (F := Ideal) V c).arrAt_eq_of_cover 2 (prod V c) (fun t _ => flushed_eq V c t) fun i => by
    have hi0 : (i 0).val < 100000 := (i 0).isLt
    have hi1 : (i 1).val < 64 := (i 1).isLt
    have hN : cfg0.N = 20 := N_0
    have hlt : (i 0).val / 5000 < cfg0.N := by rw [hN]; omega
    obtain ⟨-, -, -, -, e20, e21⟩ := idx_facts ⟨(i 0).val / 5000, hlt⟩
    refine ⟨⟨(i 0).val / 5000, hlt⟩, flush0_2 _, ?_⟩
    rw [mem_blk]
    intro a
    match a with
    | ⟨0, _⟩ =>
      show win0_2.index ⟨(i 0).val / 5000, hlt⟩ (0 : Fin 2) * 5000 ≤ (i 0).val ∧ (i 0).val < win0_2.index ⟨(i 0).val / 5000, hlt⟩ (0 : Fin 2) * 5000 + 5000
      rw [e20]; show (i 0).val / 5000 * 5000 ≤ (i 0).val ∧ (i 0).val < (i 0).val / 5000 * 5000 + 5000; omega
    | ⟨1, _⟩ =>
      show win0_2.index ⟨(i 0).val / 5000, hlt⟩ (1 : Fin 2) * 64 ≤ (i 1).val ∧ (i 1).val < win0_2.index ⟨(i 0).val / 5000, hlt⟩ (1 : Fin 2) * 64 + 64
      rw [e21]; omega

end Cert.KernelIdeal.MatmulRegion

end
-- ==== Proof.KernelValue.lean ====
/-
  The kernel program's result as a value.

  The program is: the matrix-product region; host operations that build the edge lists with self-loops, the degree
  normalisation of each edge, the gathered rows, both padded to whole blocks; the row-scaling region; host operations
  that cut the padding off, add the scaled rows into the target rows and add the bias. The buffer contents at each
  boundary are a fold through these pieces. Here each buffer the next piece reads is named as a function of the buffers
  the piece before left, using the reference's own stages for the host operations the two programs share word for
  word, and the two regions' arrays by their value lemmas; the result buffer then is the reference's result stage of
  the four arguments. The one place the programs differ is how the gathered rows are scaled: pad, scale by the padded
  column, cut back — which is the entrywise product with the broadcast vector (`slice_rowScale_pad`).
-/
import proofs.«143557_j25056839205779_1_alg».proof.Proof.Gen.KernelIdeal.Frame
import proofs.«143557_j25056839205779_1_alg».proof.Proof.RefRead
import proofs.«143557_j25056839205779_1_alg».proof.Proof.RowScale
import proofs.«143557_j25056839205779_1_alg».proof.Proof.ScaleRegion
import proofs.«143557_j25056839205779_1_alg».proof.Proof.MatmulRegion
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen

variable {F : FTy → Type} [FloatOps F]
variable (m : (ℓ : Loc nD τ sig) → Buf (Elt F) ℓ) (ρ : Dev nD → PrngReg)

/-! ## From the first region's exit to the gathered rows and the edge weights -/

set_option maxHeartbeats 4000000 in
/-- The edge weights: the reference's stage of the adjacency argument. -/
theorem W4_v30 (c : Dev nD) : W4 m ρ c (Proc.devRef .tc main_v30)
    = Cert.ReferenceIdeal.ReadP.val_main_v30 (F := F) (W1 m ρ c (Proc.devRef .tc main_arg1)) := by
  delta W4 W3 W2
  generalize W1 m ρ c = Wv
  after_results_simp
  rfl

set_option maxHeartbeats 4000000 in
/-- The gathered rows: the first region's output gathered at the reference's source indices. -/
theorem W4_v37 (c : Dev nD) : W4 m ρ c (Proc.devRef .tc main_v37)
    = Host.gather gather_S100000x64_S3300000x1_S3300000x64_1_0_n_n_0_1_164 (W1 m ρ c (Proc.devRef .tc main_v0))
        (Cert.ReferenceIdeal.ReadP.val_main_v36 (F := F) (W1 m ρ c (Proc.devRef .tc main_arg1))) := by
  delta W4 W3 W2
  generalize W1 m ρ c = Wv
  after_results_simp
  rfl

set_option maxHeartbeats 4000000 in
/-- The target indices: the reference's stage of the adjacency argument. -/
theorem W4_v7 (c : Dev nD) : W4 m ρ c (Proc.devRef .tc main_v7)
    = Cert.ReferenceIdeal.ReadP.val_main_v7 (F := F) (W1 m ρ c (Proc.devRef .tc main_arg1)) := by
  delta W4 W3 W2
  generalize W1 m ρ c = Wv
  after_results_simp
  rfl

set_option maxHeartbeats 4000000 in
/-- The bias is not written. -/
theorem W4_arg3 (c : Dev nD) : W4 m ρ c (Proc.devRef .tc main_arg3) = W1 m ρ c (Proc.devRef .tc main_arg3) := by
  delta W4 W3 W2
  generalize W1 m ρ c = Wv
  after_results_simp

/-! ## Padding to whole blocks: the second region's entry -/

set_option maxHeartbeats 2000000 in
/-- The gathered rows padded with 1376 further rows. -/
theorem W8_v38 (c : Dev nD) : W8 m ρ c (Proc.devRef .tc main_v38)
    = pad S3301376x64 ![0, 0] ![1376, 0] ![0, 0] (W4 m ρ c (Proc.devRef .tc main_v37)) (sitofp (F := F) .f32 (W4 m ρ c (Proc.devRef .tc main_c_8))) pads_S3300000x64_S3301376x64_013760_000 h_S_ := by
  delta W8 W7 W6 W5
  generalize W4 m ρ c = Wv
  after_results
  rfl

set_option maxHeartbeats 2000000 in
/-- The edge weights padded with 1376 further entries and recast as a column. -/
theorem W8_v40 (c : Dev nD) : W8 m ρ c (Proc.devRef .tc main_v40)
    = shapeCast S3301376x1 (pad S3301376 ![0] ![1376] ![0] (W4 m ρ c (Proc.devRef .tc main_v30)) (sitofp (F := F) .f32 (constantI S_ 32 0#32)) pads_S3300000_S3301376_013760 h_S_) shapeCasts_S3301376_S3301376x1 := by
  delta W8 W7 W6 W5
  generalize W4 m ρ c = Wv
  after_results
  rfl

set_option maxHeartbeats 2000000 in
theorem W8_v7 (c : Dev nD) : W8 m ρ c (Proc.devRef .tc main_v7) = W4 m ρ c (Proc.devRef .tc main_v7) := by
  delta W8 W7 W6 W5
  generalize W4 m ρ c = Wv
  after_results

set_option maxHeartbeats 2000000 in
theorem W8_arg3 (c : Dev nD) : W8 m ρ c (Proc.devRef .tc main_arg3) = W4 m ρ c (Proc.devRef .tc main_arg3) := by
  delta W8 W7 W6 W5
  generalize W4 m ρ c = Wv
  after_results

/-! ## The second region's exit -/

set_option maxHeartbeats 2000000 in
/-- The scaled rows: the padded rows scaled by the padded column. -/
theorem W9_v41 (c : Dev nD) : W9 m ρ c (Proc.devRef .tc main_v41)
    = Cert.RowScale.rowScale (W8 m ρ c (Proc.devRef .tc main_v38)) (W8 m ρ c (Proc.devRef .tc main_v40)) :=
  (W9_arr m ρ c 2).trans (Cert.KernelIdeal.ScaleRegion.final (V8 m ρ) c)

theorem W9_v7 (c : Dev nD) : W9 m ρ c (Proc.devRef .tc main_v7) = W8 m ρ c (Proc.devRef .tc main_v7) :=
  W9_of_ne m ρ c main_v7 (by decide)

theorem W9_arg3 (c : Dev nD) : W9 m ρ c (Proc.devRef .tc main_arg3) = W8 m ρ c (Proc.devRef .tc main_arg3) :=
  W9_of_ne m ρ c main_arg3 (by decide)

theorem W1_arg1 (c : Dev nD) : W1 m ρ c (Proc.devRef .tc main_arg1) = m ((c : Thread nD τ).loc main_arg1) :=
  W1_of_ne m ρ c main_arg1 (by decide)

theorem W1_arg3 (c : Dev nD) : W1 m ρ c (Proc.devRef .tc main_arg3) = m ((c : Thread nD τ).loc main_arg3) :=
  W1_of_ne m ρ c main_arg3 (by decide)

/-! ## The result -/

set_option maxHeartbeats 4000000 in
/-- The result buffer after the last host operations, from the second region's exit. -/
theorem W10_v48 (c : Dev nD) : W10 m ρ c (Proc.devRef .tc main_v48)
    = addf (Host.scatterAdd scatter_S100000x64_S3300000x1_S3300000x64_1_0_0_1
          (broadcastInDim S100000x64 ![] bcast_S_S100000x64 (constant (F := F) S_ .f32 0x00000000#32))
          (broadcastInDim S3300000x1 ![0] bcast_S3300000_S3300000x1_0 (W9 m ρ c (Proc.devRef .tc main_v7)))
          (extractStridedSlice S3300000x64 ![0, 0] (W9 m ρ c (Proc.devRef .tc main_v41)) slices_S3301376x64_S3300000x64_0_0))
        (broadcastInDim S100000x64 ![0, 1] bcast_S1x64_S100000x64_0_1
          (broadcastInDim S1x64 ![1] bcast_S64_S1x64_1 (W9 m ρ c (Proc.devRef .tc main_arg3)))) := by
  delta W10
  generalize W9 m ρ c = Wv
  after_results

set_option maxHeartbeats 4000000 in
/-- Given that the first region's output is the reference's product stage of the two float arguments, the result buffer
    is the reference's result stage of the four arguments. -/
theorem result_of (c : Dev nD)
    (h0 : W1 m ρ c (Proc.devRef .tc main_v0)
      = Cert.ReferenceIdeal.ReadP.val_main_v0 (F := F) (m ((c : Thread nD τ).loc main_arg0)) (m ((c : Thread nD τ).loc main_arg2))) :
    W10 m ρ c (Proc.devRef .tc main_v48)
      = Cert.ReferenceIdeal.ReadP.val_main_v46 (F := F) (m ((c : Thread nD τ).loc main_arg0)) (m ((c : Thread nD τ).loc main_arg1))
          (m ((c : Thread nD τ).loc main_arg2)) (m ((c : Thread nD τ).loc main_arg3)) := by
  rw [W10_v48, W9_v41, W9_v7, W9_arg3, W8_v38, W8_v40, W8_v7, W8_arg3, W4_v37, W4_v30, W4_v7, W4_arg3, h0, W1_arg1, W1_arg3]
  unfold Cert.ReferenceIdeal.ReadP.val_main_v46 Cert.ReferenceIdeal.ReadP.val_main_v43 Cert.ReferenceIdeal.ReadP.val_main_v40 Cert.ReferenceIdeal.ReadP.val_main_v39 Cert.ReferenceIdeal.ReadP.val_main_v38 Cert.ReferenceIdeal.ReadP.val_main_v37
  rw [Cert.RowScale.slice_rowScale_pad (hb1 := Cert.ReferenceIdeal.Facts₀.bcast_S3300000_S3300000x1_0)
    (hb2 := Cert.ReferenceIdeal.Facts₀.bcast_S3300000x1_S3300000x64_0_1)]
  rfl

end Cert.KernelIdeal.Chain

namespace Cert.KernelIdeal.Result

open Cert.KernelIdeal Cert.KernelIdeal.Gen

variable (m : (ℓ : Loc nD τ sig) → Buf (Elt Ideal) ℓ) (ρ : Dev nD → PrngReg)

set_option maxHeartbeats 4000000 in
/-- At the ideal instance the first region's output is the reference's product of the two float arguments. -/
theorem W1_v0 (c : Dev nD) : W1 m ρ c (Proc.devRef .tc main_v0)
    = Cert.ReferenceIdeal.ReadP.val_main_v0 (F := Ideal) (m ((c : Thread nD τ).loc main_arg0)) (m ((c : Thread nD τ).loc main_arg2)) :=
  (W1_arr m ρ c 2).trans (Cert.KernelIdeal.MatmulRegion.final (V0 m ρ) c)

/-- At the ideal instance the kernel program's result buffer is the reference's result stage of the four arguments. -/
theorem result (c : Dev nD) : W10 m ρ c (Proc.devRef .tc main_v48)
    = Cert.ReferenceIdeal.ReadP.val_main_v46 (F := Ideal) (m ((c : Thread nD τ).loc main_arg0)) (m ((c : Thread nD τ).loc main_arg1))
        (m ((c : Thread nD τ).loc main_arg2)) (m ((c : Thread nD τ).loc main_arg3)) :=
  Cert.KernelIdeal.Chain.result_of m ρ c (W1_v0 m ρ c)

end Cert.KernelIdeal.Result

end
-- ==== Proof.lean ====
/-
  A graph-convolution layer: the kernel program against its reference, over the extended reals.

  Both programs compute, for N = 100000 nodes with 256 input and 64 output features and E = 3200000 edges,
      out = scatter-add over target nodes of (h[source] · norm) + b,     h = x · W,
  over the edge list with one self-loop per node appended (R = E + N = 3300000 rows), norm the product of the inverse
  square roots of the two endpoints' degrees. The host operations that build the edge lists, the degrees and the weights,
  gather the rows, scatter them back and add the bias are the same in both programs, word for word. They differ in two
  places. The kernel program computes h in a kernel region, 20 blocks of 5000 rows, each block rounded to bf16 and
  multiplied into a zero accumulator: at the ideal instance a change of format is the identity and both the block
  product and the host's dot_general are the sum over k of x (i, k) · W (k, j), so the region's output is the host's
  product (Proof/MatmulRegion.lean). And it scales the gathered rows in a second kernel region, 403 blocks of 8192 rows,
  after padding rows and weights to 3301376 = 403 · 8192 and before cutting the padding off again, where the reference
  multiplies by the weights broadcast along the rows: at row r < R both read h[source r] (j) · norm r, and the padding
  rows are cut away before anything reads them (Proof/ScaleRegion.lean, Proof/RowScale.lean). So the kernel program's
  result buffer is the reference's result stage of the same four arguments (Proof/KernelValue.lean), which is what the
  reference's run ends at. No law of the extended reals beyond the definitions is used, and finiteness of the inputs is
  not needed.

  The frames of the two kernel programs are the generated ones; the reference's frame is its run with the result dropped.
  The idealization rewrote no operation, so there is nothing to preserve.
-/
import proofs.«143557_j25056839205779_1_alg».proof.Defs
import proofs.«143557_j25056839205779_1_alg».proof.Proof.Gen.Kernel
import proofs.«143557_j25056839205779_1_alg».proof.Proof.Gen.Kernel.Skeleton
import proofs.«143557_j25056839205779_1_alg».proof.Proof.Gen.Kernel.Launch
import proofs.«143557_j25056839205779_1_alg».proof.Proof.Gen.Kernel.Points
import proofs.«143557_j25056839205779_1_alg».proof.Proof.Gen.Kernel.Frame
import proofs.«143557_j25056839205779_1_alg».proof.Proof.Gen.KernelIdeal
import proofs.«143557_j25056839205779_1_alg».proof.Proof.Gen.KernelIdeal.Skeleton
import proofs.«143557_j25056839205779_1_alg».proof.Proof.Gen.KernelIdeal.Launch
import proofs.«143557_j25056839205779_1_alg».proof.Proof.Gen.KernelIdeal.Points
import proofs.«143557_j25056839205779_1_alg».proof.Proof.Gen.KernelIdeal.Frame
import proofs.«143557_j25056839205779_1_alg».proof.Proof.Gen.ReferenceIdeal
import proofs.«143557_j25056839205779_1_alg».proof.Proof.Gen.Pre_finite_inputs
import proofs.«143557_j25056839205779_1_alg».proof.Proof.KernelIdealRun
import proofs.«143557_j25056839205779_1_alg».proof.Proof.KernelValue
import proofs.«143557_j25056839205779_1_alg».proof.Proof.RefRun
import proofs.«143557_j25056839205779_1_alg».proof.Proof.RefRead
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

set_option maxHeartbeats 4000000 in
/-- Both runs end with the result buffer at the reference's result stage of the (agreeing) arguments. -/
theorem algebraic : Cert.algebraic_KernelIdeal_ReferenceIdeal := by
  intro m ρ m' ρ' _ hagree
  refine ⟨fun c => Cert.KernelIdeal.Gen.W10 m ρ c (Proc.devRef .tc Cert.KernelIdeal.main_v48), Cert.KernelIdeal.Run.run (F := Ideal) m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v46_eq, (hagree c).1, (hagree c).2.1, (hagree c).2.2.1, (hagree c).2.2.2]
  exact (Cert.KernelIdeal.Result.result m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
